-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x1024x512 : Shape := ⟨3, ![8, 1024, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn {F : FTy → Type} [FloatOps F] (main_arg0 : FVec F S8x8192x512 .f32) (main_arg1 : FVec F S8x1024x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  main_v8
-- ==== Kernel.lean ====
abbrev S8x8192x512 : Shape := ⟨3, ![8, 8192, 512]⟩
abbrev S8x1024x512 : Shape := ⟨3, ![8, 1024, 512]⟩
abbrev S8x1024x1024 : Shape := ⟨3, ![8, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x512, .f32⟩
  | .hbm, ⟨1, _⟩ => ⟨S8x1024x512, .f32⟩
  | .hbm, ⟨2, _⟩ => ⟨S8x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x8192x512.size a
  hwx0_0 : ∀ i : grid0.Coords, EltTy.bits .f32 = 32 ∨ (Rect.block (s := S8x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x8192x512 : Shape := ⟨3, ![8, 8192, 512]⟩
abbrev S8x1024x512 : Shape := ⟨3, ![8, 1024, 512]⟩
abbrev S8x8192x1024 : Shape := ⟨3, ![8, 8192, 1024]⟩
abbrev S8x8x1024x1024 : Shape := ⟨4, ![8, 8, 1024, 1024]⟩
abbrev S_ : Shape := ⟨0, ![]⟩
abbrev S8x1024x1024 : Shape := ⟨3, ![8, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x1024x512, .f32⟩
  | .hbm, ⟨2, _⟩ => ⟨S8x8192x1024, .f32⟩
  | .hbm, ⟨3, _⟩ => ⟨S8x8x1024x1024, .f32⟩
  | .hbm, ⟨4, _⟩ => ⟨S_, .f32⟩
  | .hbm, ⟨5, _⟩ => ⟨S8x1024x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S8x8192x1024_S8x8x1024x1024 : S8x8192x1024.ShapeCasts S8x8x1024x1024
  reducesTo_S8x8x1024x1024_S8x1024x1024_d0 : S8x8x1024x1024.ReducesTo [0] S8x1024x1024
  h_S_ : 0 < S_.numel
  dot_S8x8192x512_S8x1024x512_S8x8192x1024_2_2_1_1_0_0_wf : DotDims.WF S8x8192x512 S8x1024x512 S8x8192x1024 [2] [2] [1] [1] [0] [0]

variable [Facts₀]

def dot_S8x8192x512_S8x1024x512_S8x8192x1024_2_2_1_1_0_0 : DotDims S8x8192x512 S8x1024x512 S8x8192x1024 where
  lhsContracting := [2]
  rhsContracting := [2]
  lhsNonContracting := [1]
  rhsNonContracting := [1]
  lhsBatch := [0]
  rhsBatch := [0]
  wf := dot_S8x8192x512_S8x1024x512_S8x8192x1024_2_2_1_1_0_0_wf

class Facts : Prop extends Facts₀ where

variable [Facts]
-- ==== Proof.Pieces.lean ====
/-
  What one run of the body leaves behind, as values.

  The body touches two buffers that outlive it: the accumulator and, at the last source only, the output block.
  At the first source of a band it first stores zero into the accumulator, reads that back, adds the product and
  stores the sum, so the accumulator ends at step(zero); at every other source it ends at step(what it held).  At the
  last source the output block receives what the accumulator has just been given, under a prepended unit axis.
  Each store covers its whole buffer and each load reads a whole buffer, so the values are the stored terms themselves.
-/
import proofs.«124415_j15496242004357_1_alg».proof.Proof.Gen.KernelIdeal.Value
import Idealize.ShloMosaic.Lib.Pipeline.Value
import Idealize.ShloMosaic.Lib.Tactic

set_option maxRecDepth 16384

noncomputable section

namespace Cert.KernelIdeal.Acc

open Cert.KernelIdeal Cert.KernelIdeal.Gen Idealize.ShloMosaic Idealize.ShloMosaic.TcCoe Idealize.ShloMosaic.Tactic Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First source of a band: the accumulator ends at the step applied to the zero it was reset to. -/
theorem scratch_A (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i) (x0 x1 : Vec F S1x1024x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) origin2, View.readCov_unit_zero (S := S1024x1024) _ origin2]
  simp only [View.readAt_eq_ld, harg2.read_unread, harg3.read_unread, View.ld_unit_zero (S := S1x1024x512) origin3]

/-- A middle source: the accumulator ends at the step applied to what it held. -/
theorem scratch_B (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i) (x0 x1 : Vec F S1x1024x512 .f32) (xs0 : Vec F S1024x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin2]
  simp only [View.readAt_eq_ld, harg2.read_unread, harg3.read_unread, harg5.read_unread, View.ld_unit_zero (S := S1x1024x512) origin3,
    View.ld_unit_zero (S := S1024x1024) origin2]

/-- The last source: the accumulator again ends at the step applied to what it held, -/
theorem scratch_C (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i) (x0 x1 : Vec F S1x1024x512 .f32) (xs0 : Vec F S1024x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread, View.ld_unit_zero (S := S1x1024x512) origin3,
    View.ld_unit_zero (S := S1024x1024) origin2]

/-- and the output block receives that same value under a unit axis. -/
theorem out_C (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i) (x0 x1 : Vec F S1x1024x512 .f32) (xs0 : Vec F S1024x1024 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin3]
  simp only [View.readCov_unit_zero (S := S1024x1024) _ origin2, View.readAt_eq_ld, harg2.read_unread, harg3.read_unread,
    harg5.read_unread, View.ld_unit_zero (S := S1x1024x512) origin3, View.ld_unit_zero (S := S1024x1024) origin2]

end Cert.KernelIdeal.Acc

end
-- ==== Proof.Payload.lean ====
/-
  The arithmetic of one grid point, read at an entry.

  At a grid point the body holds a [1, 1024, 512] block X of x, a [1, 1024, 512] block W of w and the running
  [1024, 1024] accumulator A.  It forms the product of X against W contracted over the 512 columns and adds it to A:

      (A + X·Wᵀ)[r, n] = A[r, n] + Σ_{k < 512} X[0, r, k] · W[0, n, k].

  The narrowing of X and W to a shorter float format before the product is the identity on extended reals, and the
  product is accumulated from zero, so nothing else enters.  The reset value is the zero array, and the copy to the
  output block only prepends a unit axis.
-/
import proofs.«124415_j15496242004357_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Acc

open Cert.KernelIdeal Cert.KernelIdeal.Gen Idealize.ShloMosaic Idealize.ShloMosaic.ValueIdx

/-! ## The product's operand indices: rows `r` and `n`, the shared column `k` -/

theorem prod_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem prod_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem prod_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem prod_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product accumulated from zero, at entry `(r, n)`: row `r` of the left operand against row `n` of the right. -/
theorem product_apply (a b : FVec Ideal S1024x512 .bf16) (r n : Fin 1024) :
    matmul dot_S1024x512_S1024x512_S1024x1024_1_1_0_0_n_n none a b (constant (F := Ideal) S1024x1024 .f32 0x00000000#32) (ix2 r n)
      = ∑ k : Fin 512, a (ix2 r k) * b (ix2 n k) := by
  refine (Ideal.matmul_constant_zero_apply dot_S1024x512_S1024x512_S1024x1024_1_1_0_0_n_n none a b (ix2 r n)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r n) ((contrEquiv1 dot_S1024x512_S1024x512_S1024x1024_1_1_0_0_n_n 512 rfl rfl).symm k) = ix2 r k := funext fun a => Fin.ext (by
    match a with
    | ⟨0, _⟩ => exact prod_lhs_0 _ _
    | ⟨1, _⟩ => exact (prod_lhs_1 _ _).trans hk)
  have er : dot_S1024x512_S1024x512_S1024x1024_1_1_0_0_n_n.rhsIdx (ix2 r n) ((contrEquiv1 dot_S1024x512_S1024x512_S1024x1024_1_1_0_0_n_n 512 rfl rfl).symm k) = ix2 n k := funext fun a => Fin.ext (by
    match a with
    | ⟨0, _⟩ => exact prod_rhs_0 _ _
    | ⟨1, _⟩ => exact (prod_rhs_1 _ _).trans hk)
  rw [el, er]

/-! ## The three stored values at an entry -/

/-- The reset stores zero everywhere. -/
theorem reset_apply (i : S1024x1024.Idx) : k0_pay1 (F := Ideal) i = 0 := by
  unfold k0_pay1
  rw [shapeCast_self]
  exact Ideal.ofBits_zero_f32

/-- The accumulation step at entry `(r, n)`. -/
theorem step_apply (x0 x1 : Vec Ideal S1x1024x512 .f32) (acc : Vec Ideal S1024x1024 .f32) (r n : Fin 1024) :
    k0_pay2 (F := Ideal) x0 x1 acc (ix2 r n)
      = acc (ix2 r n) + ∑ k : Fin 512, x0 (ix3 (0 : Fin 1) r k) * x1 (ix3 (0 : Fin 1) n k) := by
  unfold k0_pay2
  rw [shapeCast_self]
  refine (addf_apply _ _ _).trans (congrArg (acc (ix2 r n) + ·) ?_)
  rw [product_apply]
  refine Finset.sum_congr rfl fun k _ => ?_
  rw [truncf_apply, truncf_apply, shapeCast_1ab_ab_apply, shapeCast_1ab_ab_apply]

/-- The copy to the output block prepends a unit axis. -/
theorem copy_apply (v : Vec Ideal S1024x1024 .f32) (u : Fin 1) (r n : Fin 1024) :
    k0_pay3 (F := Ideal) v (ix3 u r n) = v (ix2 r n) := by
  unfold k0_pay3
  exact shapeCast_ab_1ab_apply _ _ u r n

end Cert.KernelIdeal.Acc

end
-- ==== Proof.Spec.lean ====
/-
  The function both programs compute, as one formula over the extended reals.

  The two arguments are x : [8, 8192, 512] (eight sources, 8192 rows, 512 columns) and w : [8, 1024, 512].
  Source s contributes the product x[s] · w[s]ᵀ, an [8192, 1024] array.  The 8192 rows are cut into eight
  bands of 1024; band d goes to destination d, which adds up what the eight sources contribute to it:

      out[d, r, n] = Σ_{s < 8} Σ_{k < 512} x[s, 1024·d + r, k] · w[s, n, k].

  Addition of extended reals is commutative and associative, so the order in which the eight contributions
  are added does not matter, and no finiteness of the entries is needed anywhere.
-/
import Idealize.ShloMosaic.PureOps.Ideal
import Idealize.ShloMosaic.Lib.ValueIdx

noncomputable section

open scoped BigOperators

namespace Cert.GemmScatter

open Idealize.ShloMosaic Idealize.ShloMosaic.ValueIdx

/-- Row `r` of band `d`: the row `1024·d + r` of the 8192. -/
def bandRow (d : Fin 8) (r : Fin 1024) : Fin 8192 := ⟨1024 * d.val + r.val, by omega⟩

theorem bandRow_val (d : Fin 8) (r : Fin 1024) : (bandRow d r).val = 1024 * d.val + r.val := rfl

/-- What source `s` contributes to entry `(d, r, n)`: row `1024·d + r` of `x[s]` against row `n` of `w[s]`. -/
def contrib (x : (⟨3, ![8, 8192, 512]⟩ : Shape).Idx → EReal) (w : (⟨3, ![8, 1024, 512]⟩ : Shape).Idx → EReal)
    (s d : Fin 8) (r n : Fin 1024) : EReal :=
  ∑ k : Fin 512, x (ix3 s (bandRow d r) k) * w (ix3 s n k)

/-- The result array: entry `(d, r, n)` is the sum of the eight sources' contributions. -/
def result (x : (⟨3, ![8, 8192, 512]⟩ : Shape).Idx → EReal) (w : (⟨3, ![8, 1024, 512]⟩ : Shape).Idx → EReal) :
    (⟨3, ![8, 1024, 1024]⟩ : Shape).Idx → EReal :=
  fun i => ∑ s : Fin 8, contrib x w s (i 0) (i 1) (i 2)

theorem result_apply (x : (⟨3, ![8, 8192, 512]⟩ : Shape).Idx → EReal) (w : (⟨3, ![8, 1024, 512]⟩ : Shape).Idx → EReal)
    (d : Fin 8) (r n : Fin 1024) : result x w (ix3 d r n) = ∑ s : Fin 8, contrib x w s d r n := rfl

/-- A sum over the first eight naturals is the sum over `Fin 8`. -/
theorem sum_range_eight {β : Type*} [AddCommMonoid β] (f : ℕ → β) :
    ∑ s ∈ Finset.range 8, f s = ∑ s : Fin 8, f s.val := (Fin.sum_univ_eq_sum_range f 8).symm

end Cert.GemmScatter

end
-- ==== Proof.KernelValue.lean ====
/-
  What the kernel's result array holds after the run.

  The grid has 64 points, point t = 8·d + s handling destination band d and source s, with s running fastest.
  At point t the body holds the block x[s, 1024·d .. 1024·d + 1023, :] and the block w[s, :, :]; the accumulator is
  reset at s = 0, gains source s's contribution at every point, and is copied to output block d at s = 7.  So after
  point 8·d + 7 the accumulator at (r, n) is 0 + Σ_{s < 8} (source s's contribution to (d, r, n)), which is the
  specification's entry (d, r, n); the eight output blocks tile the result array.
-/
import proofs.«124415_j15496242004357_1_alg».proof.Proof.Gen.KernelIdeal.Value
import proofs.«124415_j15496242004357_1_alg».proof.Proof.Pieces
import proofs.«124415_j15496242004357_1_alg».proof.Proof.Payload
import proofs.«124415_j15496242004357_1_alg».proof.Proof.Spec

set_option maxRecDepth 16384

noncomputable section

open scoped BigOperators

namespace Cert.KernelIdeal.Acc

open Cert.KernelIdeal Cert.KernelIdeal.Gen Cert.KernelIdeal.Value Cert.GemmScatter
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The blocks and arrays under their literal types -/

/-- The block of `x` the body holds at point `t`. -/
abbrev xblk (c : Dev nD) (t : Fin cfg0.N) : Vec F S1x1024x512 .f32 := iblk m c 0 t
/-- The block of `w` the body holds at point `t`. -/
abbrev wblk (c : Dev nD) (t : Fin cfg0.N) : Vec F S1x1024x512 .f32 := iblk m c 1 t
/-- The array `x` as the kernel finds it. -/
abbrev xarr (c : Dev nD) : Vec F S8x8192x512 .f32 := V m c main_arg0
/-- The array `w` as the kernel finds it. -/
abbrev warr (c : Dev nD) : Vec F S8x1024x512 .f32 := V m c main_arg1

/-- Where the three windows sit at point `t = 8·d + s`: the block of `x` at (s, d, 0), of `w` at (s, 0, 0), of the
    output at (d, 0, 0). -/
theorem window_positions : ∀ t : Fin cfg0.N,
    win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- Source and destination of a point. -/
def src (p : ℕ) : Fin 8 := ⟨p % 8, Nat.mod_lt _ (by decide)⟩
def dst (p : ℕ) : Fin 8 := ⟨p / 8 % 8, Nat.mod_lt _ (by decide)⟩

/-- Entry (0, r, k) of the block of `x` at point `t` is x[s, 1024·d + r, k]. -/
theorem xblk_apply (c : Dev nD) (t : Fin cfg0.N) (u : Fin 1) (r : Fin 1024) (k : Fin 512) :
    xblk m c t (ix3 u r k) = xarr m c (ix3 (src t.val) (bandRow (dst t.val) r) k) := by
  obtain ⟨e0, e1, e2, -⟩ := window_positions t
  have hN : t.val < 64 := lt_of_lt_of_eq t.isLt (show cfg0.N = 64 from N_0)
  show ((cfg0.win 0).blk t).view.read (Elt F) (V m c main_arg0) (ix3 u r k) = V m c main_arg0 _
  rw [View.read_apply]
  refine congrArg (V m c main_arg0) (funext fun a => Fin.ext ?_)
  match a with
  | ⟨0, _⟩ => show win0_0.index t (0 : Fin 3) * 1 + 1 * u.val = t.val % 8; omega
  | ⟨1, _⟩ => show win0_0.index t (1 : Fin 3) * 1024 + 1 * r.val = 1024 * (t.val / 8 % 8) + r.val; omega
  | ⟨2, _⟩ => show win0_0.index t (2 : Fin 3) * 512 + 1 * k.val = k.val; omega

/-- Entry (0, n, k) of the block of `w` at point `t` is w[s, n, k]. -/
theorem wblk_apply (c : Dev nD) (t : Fin cfg0.N) (u : Fin 1) (n : Fin 1024) (k : Fin 512) :
    wblk m c t (ix3 u n k) = warr m c (ix3 (src t.val) n k) := by
  obtain ⟨-, -, -, e0, e1, e2, -⟩ := window_positions t
  show ((cfg0.win 1).blk t).view.read (Elt F) (V m c main_arg1) (ix3 u n k) = V m c main_arg1 _
  rw [View.read_apply]
  refine congrArg (V m c main_arg1) (funext fun a => Fin.ext ?_)
  match a with
  | ⟨0, _⟩ => show win0_1.index t (0 : Fin 3) * 1 + 1 * u.val = t.val % 8; omega
  | ⟨1, _⟩ => show win0_1.index t (1 : Fin 3) * 1024 + 1 * n.val = n.val; omega
  | ⟨2, _⟩ => show win0_1.index t (2 : Fin 3) * 512 + 1 * k.val = k.val; omega

/-! ## One point's step on the accumulator -/

/-- What point `n` leaves in the accumulator over what it found: the step applied to the reset value at the first
    point of a band, to what the point before left elsewhere. -/
theorem step_at (c : Dev nD) (n : ℕ) (hb : n < cfg0.N) (acc : Vec F S1024x1024 .f32) :
    scAt0_0 m c n hb acc
      = k0_pay2 (xblk m c ⟨n, hb⟩) (wblk m c ⟨n, hb⟩) (if n % 8 = 0 then k0_pay1 (F := F) else acc) := by
  have hN : n < 64 := lt_of_lt_of_eq hb (show cfg0.N = 64 from N_0)
  unfold scAt0_0
  by_cases h0 : n % 8 = 0
  · have h1 : ¬n % 8 = 7 := by omega
    rw [dif_pos h0, dif_neg h1, if_pos h0]
    exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  · rw [dif_neg h0, if_neg h0]
    by_cases h1 : n % 8 = 7
    · rw [dif_pos h1]
      exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc
    · rw [dif_neg h1]
      exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc

/-- At a copying point the output block is the accumulator just left, under a unit axis. -/
theorem out_is_copy (c : Dev nD) (t : Fin cfg0.N) (h0 : ¬t.val % 8 = 0) (h1 : t.val % 8 = 7) :
    (outsAt0 m c t.val t.isLt).1 = k0_pay3 (outsAt0 m c t.val t.isLt).2 := by
  rw [outsAt0_C m c t h0 h1]
  dsimp only
  exact (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg k0_pay3 (scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm)

/-! ## At the extended reals: a band's total, the flushed block, the whole array -/

section AtIdeal

variable (m : (ℓ : Loc nD τ sig) → Buf (Elt Ideal) ℓ) (ρ : Dev nD → PrngReg)

/-- What point `p` adds at entry `(r, n)` of the accumulator: its source's contribution to `(d, r, n)`. -/
def addend (c : Dev nD) (p : ℕ) (i : S1024x1024.Idx) : EReal :=
  contrib (xarr m c) (warr m c) (src p) (dst p) (i 0) (i 1)

/-- One point's step at an entry: zero at the first source of a band, else what was there, plus the point's addend. -/
theorem step_at_apply (c : Dev nD) (n : ℕ) (hb : n < cfg0.N) (acc : Vec Ideal S1024x1024 .f32) (i : S1024x1024.Idx) :
    scAt0_0 m c n hb acc i = (if n % 8 = 0 then 0 else acc i) + addend m c n i := by
  obtain ⟨r, q, rfl⟩ : ∃ (r q : Fin 1024), i = ix2 r q := ⟨i 0, i 1, eq_ix2 i⟩
  rw [step_at, step_apply]
  have hsum : ∑ k : Fin 512, xblk m c ⟨n, hb⟩ (ix3 (0 : Fin 1) r k) * wblk m c ⟨n, hb⟩ (ix3 (0 : Fin 1) q k) = addend m c n (ix2 r q) := by
    unfold addend contrib
    refine Finset.sum_congr rfl fun k _ => ?_
    rw [xblk_apply, wblk_apply]
  rw [hsum]
  by_cases h0 : n % 8 = 0
  · rw [if_pos h0, if_pos h0, reset_apply]
  · rw [if_neg h0, if_neg h0]

/-- After the last source of band `d` the accumulator holds, at `(r, n)`, the eight sources' contributions added up. -/
theorem band_total (c : Dev nD) (t : Fin cfg0.N) (h7 : t.val % 8 = 7) (i : S1024x1024.Idx) :
    (outsAt0 m c t.val t.isLt).2 i = ∑ s : Fin 8, contrib (xarr m c) (warr m c) s (dst t.val) (i 0) (i 1) := by
  have hN : t.val < 64 := lt_of_lt_of_eq t.isLt (show cfg0.N = 64 from N_0)
  rw [soutsAt0_0_eq m c t]
  rw [Pipeline.accAt_add_apply (fun n h => scAt0_0 m c n h (VS0_0.read (Elt Ideal) VS0_0.junk)) (scAt0_0 m c)
    (fun _ => (0 : EReal)) (addend m c) (8 * (t.val / 8)) 7
    (fun h j => by rw [step_at_apply, if_pos (by omega)])
    (fun n h acc j h1 h2 => by rw [step_at_apply, if_neg (by omega)])
    (t.val % 8) (by omega) _ i]
  rw [h7, zero_add, sum_range_eight]
  refine Finset.sum_congr rfl fun s _ => ?_
  have hs : s.val < 8 := s.isLt
  unfold addend
  rw [show src (8 * (t.val / 8) + s.val) = s from Fin.ext (by show (8 * (t.val / 8) + s.val) % 8 = s.val; omega),
    show dst (8 * (t.val / 8) + s.val) = dst t.val from Fin.ext (by show (8 * (t.val / 8) + s.val) / 8 % 8 = t.val / 8 % 8; omega)]

/-- Entry (0, r, n) of output block `t` sits at (d, r, n) of the result array. -/
theorem out_position (t : Fin cfg0.N) (u : Fin 1) (r n : Fin 1024) :
    ((cfg0.win 2).blk t).view.emb (ix3 u r n) = ix3 (dst t.val) r n := by
  obtain ⟨-, -, -, -, -, -, e0, e1, e2⟩ := window_positions t
  have hN : t.val < 64 := lt_of_lt_of_eq t.isLt (show cfg0.N = 64 from N_0)
  funext a
  apply Fin.ext
  match a with
  | ⟨0, _⟩ => show win0_2.index t (0 : Fin 3) * 1 + 1 * u.val = t.val / 8 % 8; omega
  | ⟨1, _⟩ => show win0_2.index t (1 : Fin 3) * 1024 + 1 * r.val = r.val; omega
  | ⟨2, _⟩ => show win0_2.index t (2 : Fin 3) * 1024 + 1 * n.val = n.val; omega

/-- What a copying point writes back is its block of the specification's array. -/
theorem flushed_eq (c : Dev nD) (t : Fin cfg0.N) (hf : (cfg0.win 2).flush t = true) :
    (dats m 0 c).flushed 2 t = ((cfg0.win 2).blk t).view.read (Elt Ideal) (result (xarr m c) (warr m c)) := by
  have h7 : t.val % 8 = 7 := (flush0_2 t).mp hf
  have h0 : ¬t.val % 8 = 0 := by omega
  rw [flushed2 m c t, out_is_copy m c t h0 h7]
  funext j
  obtain ⟨u, r, n, rfl⟩ : ∃ (u : Fin 1) (r n : Fin 1024), j = ix3 u r n := ⟨j 0, j 1, j 2, eq_ix3 j⟩
  rw [View.read_apply, out_position]
  show k0_pay3 (outsAt0 m c t.val t.isLt).2 (ix3 u r n) = result (xarr m c) (warr m c) (ix3 (dst t.val) r n)
  rw [copy_apply, band_total m c t h7, result_apply]

/-- Every entry (d, r, n) of the result array lies in the block written back at point 8·d + 7. -/
theorem covered (i : S8x1024x1024.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 1024 := (i 2).isLt
  have hN : cfg0.N = 64 := N_0
  have ht : 8 * (i 0).val + 7 < cfg0.N := by rw [hN]; omega
  obtain ⟨-, -, -, -, -, -, e0, e1, e2⟩ := window_positions ⟨8 * (i 0).val + 7, ht⟩
  have e0' : win0_2.index ⟨8 * (i 0).val + 7, ht⟩ (0 : Fin 3) = (8 * (i 0).val + 7) / 8 := e0
  refine ⟨⟨8 * (i 0).val + 7, ht⟩, (flush0_2 _).mpr (by show (8 * (i 0).val + 7) % 8 = 7; omega), ?_⟩
  show i ∈ ((View.whole main_v0).slice (win0_2.rect ⟨8 * (i 0).val + 7, ht⟩)).set
  rw [View.set_slice_whole, Rect.mem_set_unit]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    omega
  | ⟨1, _⟩ =>
    show win0_2.index ⟨8 * (i 0).val + 7, ht⟩ (1 : Fin 3) * 1024 ≤ (i 1).val ∧ (i 1).val < win0_2.index ⟨8 * (i 0).val + 7, ht⟩ (1 : Fin 3) * 1024 + 1024
    omega
  | ⟨2, _⟩ =>
    show win0_2.index ⟨8 * (i 0).val + 7, ht⟩ (2 : Fin 3) * 1024 ≤ (i 2).val ∧ (i 2).val < win0_2.index ⟨8 * (i 0).val + 7, ht⟩ (2 : Fin 3) * 1024 + 1024
    omega

/-- So the result array ends at the specification's array of the two arguments. -/
theorem final (c : Dev nD) : (dats m 0 c).arrAt 2 cfg0.N = result (xarr m c) (warr m c) :=
  (dats m 0 c).arrAt_eq_of_cover 2 (result (xarr m c) (warr m c)) (flushed_eq m c) covered

/-- The kernel's run: it ends, the result array at the specification, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end AtIdeal

end Cert.KernelIdeal.Acc

end
-- ==== Proof.RefValue.lean ====
/-
  The reference computes the specification.

  The reference forms P[s, m, n] = Σ_k x[s, m, k] · w[s, n, k] for every source s and every one of the 8192 rows m,
  regroups the rows as (d, r) with m = 1024·d + r, and adds over s starting from zero.  Read at the entry (d, r, n)
  this is 0 + Σ_s Σ_k x[s, 1024·d + r, k] · w[s, n, k]: the regrouping is the identity on row-major positions, and
  ((8·s + d)·1024 + r)·1024 + n, split again by 8192·1024 and by 1024, gives back s, 1024·d + r and n.
-/
import proofs.«124415_j15496242004357_1_alg».proof.Proof.Gen.ReferenceIdeal.Read
import proofs.«124415_j15496242004357_1_alg».proof.Proof.Spec

noncomputable section

open scoped BigOperators

namespace Cert.GemmScatter

open Cert.ReferenceIdeal Cert.ReferenceIdeal.Read Idealize.ShloMosaic Idealize.ShloMosaic.ValueIdx

/-- The left operand's index under the regrouped rows: source `s`, row `1024·d + r`, column `k`. -/
theorem left_index (i : S8x1024x1024.Idx) (s : Fin 8) (k : Fin 512) :
    lidx_main_v0 (idx_main_v1 (idx_main_v2 i s)) k = ix3 s (bandRow (i 0) (i 1)) k := by
  have h0 : (i 0).val < 8 := (i 0).isLt
  have h1 : (i 1).val < 1024 := (i 1).isLt
  have h2 : (i 2).val < 1024 := (i 2).isLt
  have hs : s.val < 8 := s.isLt
  funext a
  apply Fin.ext
  match a with
  | ⟨0, _⟩ =>
    show (((s.val * 8 + (i 0).val) * 1024 + (i 1).val) * 1024 + (i 2).val) / 8388608 = s.val
    omega
  | ⟨1, _⟩ =>
    show (((s.val * 8 + (i 0).val) * 1024 + (i 1).val) * 1024 + (i 2).val) / 1024 % 8192 = 1024 * (i 0).val + (i 1).val
    omega
  | ⟨2, _⟩ => rfl

/-- The right operand's index: source `s`, row `n`, column `k`. -/
theorem right_index (i : S8x1024x1024.Idx) (s : Fin 8) (k : Fin 512) :
    ridx_main_v0 (idx_main_v1 (idx_main_v2 i s)) k = ix3 s (i 2) k := by
  have h0 : (i 0).val < 8 := (i 0).isLt
  have h1 : (i 1).val < 1024 := (i 1).isLt
  have h2 : (i 2).val < 1024 := (i 2).isLt
  have hs : s.val < 8 := s.isLt
  funext a
  apply Fin.ext
  match a with
  | ⟨0, _⟩ =>
    show (((s.val * 8 + (i 0).val) * 1024 + (i 1).val) * 1024 + (i 2).val) / 8388608 = s.val
    omega
  | ⟨1, _⟩ =>
    show (((s.val * 8 + (i 0).val) * 1024 + (i 1).val) * 1024 + (i 2).val) % 1024 = (i 2).val
    omega
  | ⟨2, _⟩ => rfl

/-- The reference's last stage is the specification, entry by entry. -/
theorem reference_eq_result (x : (⟨S8x8192x512, .f32⟩ : BufTy).Contents (Elt Ideal)) (w : (⟨S8x1024x512, .f32⟩ : BufTy).Contents (Elt Ideal)) :
    val_main_v2 (F := Ideal) x w = result x w := by
  funext i
  rw [val_main_v2_apply]
  simp only [val_main_v1_apply, val_main_v0_apply, left_index, right_index, val_main_cst_apply]
  show Ideal.ofBits .f32 0x00000000#32 + _ = _
  rw [Ideal.ofBits_zero_f32, zero_add]
  rfl

end Cert.GemmScatter

end
-- ==== Proof.lean ====
/-
  A matrix product followed by a reduce-scatter, fused, against its plain formulation.

  Arguments: x of shape [8, 8192, 512] and w of shape [8, 1024, 512], eight sources each.  Source s forms the product
  x[s] · w[s]ᵀ of shape [8192, 1024]; its 8192 rows are cut into eight bands of 1024 and band d is sent to
  destination d, which adds what the eight sources send:

      out[d, r, n] = Σ_{s < 8} Σ_{k < 512} x[s, 1024·d + r, k] · w[s, n, k].

  The kernel walks a grid of 64 points (d, s), s fastest.  At a point it multiplies the 1024 rows of band d of x[s] by
  w[s]ᵀ and adds the product to a running [1024, 1024] accumulator, which it resets to zero at s = 0 and copies to
  output block d at s = 7.  The reference forms all the products at once, regroups the 8192 rows as (d, r), and sums
  over s from zero.  Over the extended reals both are the double sum above (Spec.lean): the kernel's chain
  ((0 + c₀) + c₁) + … + c₇ of the eight contributions is their sum because addition is associative, the narrowing of
  the operands to a shorter float format is the identity, and each product is accumulated from zero.  No entry needs
  to be finite for this, so the precondition is not used.

  Pieces.lean reads what one run of the body leaves in the accumulator and the output block; Payload.lean reads the
  body's arithmetic at an entry; KernelValue.lean adds up a band and tiles the result array with the eight blocks;
  RefValue.lean reads the reference at an entry.  The kernel's idealization rewrites nothing, so the third claim is
  trivial; the frames of the two kernel programs are the generated ones, and the reference's frame is its run.
-/
import proofs.«124415_j15496242004357_1_alg».proof.Defs
import proofs.«124415_j15496242004357_1_alg».proof.Proof.Gen.Kernel
import proofs.«124415_j15496242004357_1_alg».proof.Proof.Gen.Kernel.Skeleton
import proofs.«124415_j15496242004357_1_alg».proof.Proof.Gen.Kernel.Launch
import proofs.«124415_j15496242004357_1_alg».proof.Proof.Gen.Kernel.Points
import proofs.«124415_j15496242004357_1_alg».proof.Proof.Gen.Kernel.Frame
import proofs.«124415_j15496242004357_1_alg».proof.Proof.Gen.KernelIdeal
import proofs.«124415_j15496242004357_1_alg».proof.Proof.Gen.KernelIdeal.Skeleton
import proofs.«124415_j15496242004357_1_alg».proof.Proof.Gen.KernelIdeal.Launch
import proofs.«124415_j15496242004357_1_alg».proof.Proof.Gen.KernelIdeal.Points
import proofs.«124415_j15496242004357_1_alg».proof.Proof.Gen.KernelIdeal.Frame
import proofs.«124415_j15496242004357_1_alg».proof.Proof.Gen.ReferenceIdeal
import proofs.«124415_j15496242004357_1_alg».proof.Proof.Gen.KernelIdeal.Value
import proofs.«124415_j15496242004357_1_alg».proof.Proof.Gen.ReferenceIdeal.Run
import proofs.«124415_j15496242004357_1_alg».proof.Proof.Gen.ReferenceIdeal.Read
import proofs.«124415_j15496242004357_1_alg».proof.Proof.Gen.Pre_finite_inputs
import proofs.«124415_j15496242004357_1_alg».proof.Proof.KernelValue
import proofs.«124415_j15496242004357_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of four array operations; its run, with the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and w, the kernel's result array and the reference's both end at the double sum
    of the specification, entry by entry. -/
theorem algebraic : Cert.algebraic_KernelIdeal_ReferenceIdeal := by
  intro m ρ m' ρ' _ hagree
  refine ⟨fun c => Cert.GemmScatter.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.GemmScatter.reference_eq_result, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
